-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4x512x768 : Shape := ⟨4, ![32, 4, 512, 768]⟩
abbrev S32x512 : Shape := ⟨2, ![32, 512]⟩
abbrev S_ : Shape := ⟨0, ![]⟩

class Facts : Prop where
  bcast_S_S32x4x512x768 : S_.BroadcastsInDim S32x4x512x768 (![] : Fin 0 → Fin S32x4x512x768.rank)
  reducesTo_S32x4x512x768_S_d0_1_2_3 : S32x4x512x768.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_

variable [Facts]

def fn {F : FTy → Type} [FloatOps F] (main_arg0 : FVec F S32x4x512x768 .f32) (main_arg1 : IVec S32x512 32) : IVec S_ 1 :=
  let main_v0 : FVec F S32x4x512x768 .f32 := Host.absf main_arg0
  let main_cst : FVec F S_ .f32 := constant S_ .f32 0x7F800000#32
  let main_v1 : FVec F S32x4x512x768 .f32 := broadcastInDim S32x4x512x768 ![] bcast_S_S32x4x512x768 main_cst
  let main_v2 : IVec S32x4x512x768 1 := cmpf .olt main_v0 main_v1
  let main_c : IVec S_ 1 := constantI S_ 1 1#1
  let main_v3 : IVec S_ 1 := (fun x v => Host.reduce IntOp.andi x v reducesTo_S32x4x512x768_S_d0_1_2_3 h_S_) main_v2 main_c
  let main_c_0 : IVec S_ 32 := constantI S_ 32 0#32
  let main_v4 : IVec S32x512 32 := broadcastInDim S32x512 ![] bcast_S_S32x512 main_c_0
  let main_v5 : IVec S32x512 1 := cmpi .sge main_arg1 main_v4
  let main_c_1 : IVec S_ 32 := constantI S_ 32 512#32
  let main_v6 : IVec S32x512 32 := broadcastInDim S32x512 ![] bcast_S_S32x512 main_c_1
  let main_v7 : IVec S32x512 1 := cmpi .slt main_arg1 main_v6
  let main_v8 : IVec S32x512 1 := andi main_v5 main_v7
  let main_c_2 : IVec S_ 1 := constantI S_ 1 1#1
  let main_v9 : IVec S_ 1 := (fun x v => Host.reduce IntOp.andi x v reducesTo_S32x512_S_d0_1 h_S_) main_v8 main_c_2
  let main_v10 : IVec S_ 1 := andi main_v3 main_v9
  main_v10
-- ==== Kernel.lean ====
abbrev S32x4x512x768 : Shape := ⟨4, ![32, 4, 512, 768]⟩
abbrev S32x512 : Shape := ⟨2, ![32, 512]⟩
abbrev S32x512x1 : Shape := ⟨3, ![32, 512, 1]⟩
abbrev S32x768x512 : Shape := ⟨3, ![32, 768, 512]⟩
abbrev S32x1x768 : Shape := ⟨3, ![32, 1, 768]⟩
abbrev S2x512x1 : Shape := ⟨3, ![2, 512, 1]⟩
abbrev S2x4x512x768 : Shape := ⟨4, ![2, 4, 512, 768]⟩
abbrev S2x768x512 : Shape := ⟨3, ![2, 768, 512]⟩
abbrev S2x1x768 : Shape := ⟨3, ![2, 1, 768]⟩
abbrev S1x512x512 : Shape := ⟨3, ![1, 512, 512]⟩
abbrev S2x512x512 : Shape := ⟨3, ![2, 512, 512]⟩
abbrev S2x512x768 : Shape := ⟨3, ![2, 512, 768]⟩
abbrev S2x1x512x768 : Shape := ⟨4, ![2, 1, 512, 768]⟩
abbrev S2x768 : Shape := ⟨2, ![2, 768]⟩
abbrev S32x768 : Shape := ⟨2, ![32, 768]⟩

abbrev nBuf : Space → Nat
  | .hbm => 6
  | .vmem => 8
  | .smem => 0
  | _ => 0

abbrev bufTy : (tb : Table) → Fin (tcTables nBuf tb) → BufTy
  | .hbm, ⟨0, _⟩ => ⟨S32x4x512x768, .f32⟩
  | .hbm, ⟨1, _⟩ => ⟨S32x512, .i32⟩
  | .hbm, ⟨2, _⟩ => ⟨S32x512x1, .i32⟩
  | .hbm, ⟨3, _⟩ => ⟨S32x768x512, .f32⟩
  | .hbm, ⟨4, _⟩ => ⟨S32x1x768, .f32⟩
  | .hbm, ⟨5, _⟩ => ⟨S32x768, .f32⟩
  | .local _ .vmem, ⟨0, _⟩ => ⟨S2x512x1, .i32⟩
  | .local _ .vmem, ⟨1, _⟩ => ⟨S2x512x1, .i32⟩
  | .local _ .vmem, ⟨2, _⟩ => ⟨S2x4x512x768, .f32⟩
  | .local _ .vmem, ⟨3, _⟩ => ⟨S2x4x512x768, .f32⟩
  | .local _ .vmem, ⟨4, _⟩ => ⟨S2x768x512, .f32⟩
  | .local _ .vmem, ⟨5, _⟩ => ⟨S2x768x512, .f32⟩
  | .local _ .vmem, ⟨6, _⟩ => ⟨S2x1x768, .f32⟩
  | .local _ .vmem, ⟨7, _⟩ => ⟨S2x1x768, .f32⟩
  | _, _ => ⟨S32x4x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S32x512_S32x512x1_0_1 : S32x512.BroadcastsInDim S32x512x1 (![0, 1] : Fin 2 → Fin S32x512x1.rank)
  iota_S1x512x512_d2_w32 : S1x512x512.Iotas .tc 32 [2]
  inb_S2x512x1_S2x512x1_0_0_0 : ∀ a, (![0, 0, 0] : Fin 3 → Nat) a + S2x512x1.size a ≤ S2x512x1.size a
  h_S2x512x1 : 0 < S2x512x1.numel
  shapeCasts_S2x512x1_S2x512x1 : S2x512x1.ShapeCasts S2x512x1
  broadcasts_S2x512x1_S2x512x512 : S2x512x1.Broadcasts S2x512x512
  broadcasts_S1x512x512_S2x512x512 : S1x512x512.Broadcasts S2x512x512
  natLt_1_32 : 1 < 32
  bitsLt_bf16_f32 : FTy.bits .bf16 < FTy.bits .f32
  inb_S2x4x512x768_S2x1x512x768_0_0_0_0 : ∀ a, (![0, 0, 0, 0] : Fin 4 → Nat) a + S2x1x512x768.size a ≤ S2x4x512x768.size a
  h_S2x1x512x768 : 0 < S2x1x512x768.numel
  shapeCasts_S2x1x512x768_S2x512x768 : S2x1x512x768.ShapeCasts S2x512x768
  inb_S2x4x512x768_S2x1x512x768_0_1_0_0 : ∀ a, (![0, 1, 0, 0] : Fin 4 → Nat) a + S2x1x512x768.size a ≤ S2x4x512x768.size a
  inb_S2x4x512x768_S2x1x512x768_0_2_0_0 : ∀ a, (![0, 2, 0, 0] : Fin 4 → Nat) a + S2x1x512x768.size a ≤ S2x4x512x768.size a
  inb_S2x4x512x768_S2x1x512x768_0_3_0_0 : ∀ a, (![0, 3, 0, 0] : Fin 4 → Nat) a + S2x1x512x768.size a ≤ S2x4x512x768.size a
  inb_S2x768x512_S2x768x512_0_0_0 : ∀ a, (![0, 0, 0] : Fin 3 → Nat) a + S2x768x512.size a ≤ S2x768x512.size a
  h_S2x768x512 : 0 < S2x768x512.numel
  reduces_S2x512x768_S2x768 : S2x512x768.Reduces [1] S2x768
  shapeCasts_S2x768_S2x1x768 : S2x768.ShapeCasts S2x1x768
  inb_S2x1x768_S2x1x768_0_0_0 : ∀ a, (![0, 0, 0] : Fin 3 → Nat) a + S2x1x768.size a ≤ S2x1x768.size a
  h_S2x1x768 : 0 < S2x1x768.numel
  shapeCasts_S32x1x768_S32x768 : S32x1x768.ShapeCasts S32x768
  dot_S2x512x768_S2x512x512_S2x768x512_1_1_2_2_0_0_wf : DotDims.WF S2x512x768 S2x512x512 S2x768x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1.size a ≤ S32x512x1.size a
  hwx0_0 : ∀ i : grid0.Coords, EltTy.bits .i32 = 32 ∨ (Rect.block (s := S32x512x1) S2x512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4x512x768.size a ≤ S32x4x512x768.size a
  hwx0_1 : ∀ i : grid0.Coords, EltTy.bits .f32 = 32 ∨ (Rect.block (s := S32x4x512x768) S2x4x512x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x768x512.size a ≤ S32x768x512.size a
  hwx0_2 : ∀ i : grid0.Coords, EltTy.bits .f32 = 32 ∨ (Rect.block (s := S32x768x512) S2x768x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x768.size a ≤ S32x1x768.size a
  hwx0_3 : ∀ i : grid0.Coords, EltTy.bits .f32 = 32 ∨ (Rect.block (s := S32x1x768) S2x1x768.size (cc0_transform_3 i) (hinb0_3 i)).WholeWords (EltTy.packing .f32)

variable [Facts₀]

def dot_S2x512x768_S2x512x512_S2x768x512_1_1_2_2_0_0 : DotDims S2x512x768 S2x512x512 S2x768x512 where
  lhsContracting := [1]
  rhsContracting := [1]
  lhsNonContracting := [2]
  rhsNonContracting := [2]
  lhsBatch := [0]
  rhsBatch := [0]
  wf := dot_S2x512x768_S2x512x512_S2x768x512_1_1_2_2_0_0_wf

abbrev win0_0 : Pipeline.Window sig grid0 :=
  Pipeline.Window.ofSpec (Memref.whole main_v0) S2x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2x4x512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x768x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2x1x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4x512x768 : Shape := ⟨4, ![32, 4, 512, 768]⟩
abbrev S32x512 : Shape := ⟨2, ![32, 512]⟩
abbrev S32x512x4x768 : Shape := ⟨4, ![32, 512, 4, 768]⟩
abbrev S16384x4x768 : Shape := ⟨3, ![16384, 4, 768]⟩
abbrev S32 : Shape := ⟨1, ![32]⟩
abbrev S32x1 : Shape := ⟨2, ![32, 1]⟩
abbrev S_ : Shape := ⟨0, ![]⟩
abbrev S16384 : Shape := ⟨1, ![16384]⟩
abbrev S16384x1 : Shape := ⟨2, ![16384, 1]⟩
abbrev S32x768 : Shape := ⟨2, ![32, 768]⟩
abbrev S32x512x768 : Shape := ⟨3, ![32, 512, 768]⟩
abbrev S32x768x512 : Shape := ⟨3, ![32, 768, 512]⟩

abbrev nBuf : Space → Nat
  | .hbm => 28
  | .vmem => 0
  | .smem => 0
  | _ => 0

abbrev bufTy : (tb : Table) → Fin (tcTables nBuf tb) → BufTy
  | .hbm, ⟨0, _⟩ => ⟨S32x4x512x768, .f32⟩
  | .hbm, ⟨1, _⟩ => ⟨S32x512, .i32⟩
  | .hbm, ⟨2, _⟩ => ⟨S32x512x4x768, .f32⟩
  | .hbm, ⟨3, _⟩ => ⟨S16384x4x768, .f32⟩
  | .hbm, ⟨4, _⟩ => ⟨S32, .i32⟩
  | .hbm, ⟨5, _⟩ => ⟨S32x1, .i32⟩
  | .hbm, ⟨6, _⟩ => ⟨S_, .i32⟩
  | .hbm, ⟨7, _⟩ => ⟨S32x1, .i32⟩
  | .hbm, ⟨8, _⟩ => ⟨S32x1, .i32⟩
  | .hbm, ⟨9, _⟩ => ⟨S32x512, .i32⟩
  | .hbm, ⟨10, _⟩ => ⟨S32x512, .i32⟩
  | .hbm, ⟨11, _⟩ => ⟨S16384, .i32⟩
  | .hbm, ⟨12, _⟩ => ⟨S_, .f32⟩
  | .hbm, ⟨13, _⟩ => ⟨S16384x4x768, .f32⟩
  | .hbm, ⟨14, _⟩ => ⟨S16384x1, .i32⟩
  | .hbm, ⟨15, _⟩ => ⟨S16384x4x768, .f32⟩
  | .hbm, ⟨16, _⟩ => ⟨S32x512x4x768, .f32⟩
  | .hbm, ⟨17, _⟩ => ⟨S_, .f32⟩
  | .hbm, ⟨18, _⟩ => ⟨S32x768, .f32⟩
  | .hbm, ⟨19, _⟩ => ⟨S_, .f32⟩
  | .hbm, ⟨20, _⟩ => ⟨S32x768, .f32⟩
  | .hbm, ⟨21, _⟩ => ⟨S32x768, .f32⟩
  | .hbm, ⟨22, _⟩ => ⟨S_, .f32⟩
  | .hbm, ⟨23, _⟩ => ⟨S32x512x768, .f32⟩
  | .hbm, ⟨24, _⟩ => ⟨S_, .f32⟩
  | .hbm, ⟨25, _⟩ => ⟨S32x512x768, .f32⟩
  | .hbm, ⟨26, _⟩ => ⟨S32x512x768, .f32⟩
  | .hbm, ⟨27, _⟩ => ⟨S32x768x512, .f32⟩
  | _, _ => ⟨S32x4x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S32x4x512x768_S32x512x4x768_0_2_1_3 : S32x4x512x768.Transposes [0, 2, 1, 3] S32x512x4x768
  shapeCasts_S32x512x4x768_S16384x4x768 : S32x512x4x768.ShapeCasts S16384x4x768
  bcast_S32_S32x1_0 : S32.BroadcastsInDim S32x1 (![0] : Fin 1 → Fin S32x1.rank)
  bcast_S_S32x1 : S_.BroadcastsInDim S32x1 (![] : Fin 0 → Fin S32x1.rank)
  bcast_S32x1_S32x512_0_1 : S32x1.BroadcastsInDim S32x512 (![0, 1] : Fin 2 → Fin S32x512.rank)
  shapeCasts_S32x512_S16384 : S32x512.ShapeCasts S16384
  bcast_S_S16384x4x768 : S_.BroadcastsInDim S16384x4x768 (![] : Fin 0 → Fin S16384x4x768.rank)
  bcast_S16384_S16384x1_0 : S16384.BroadcastsInDim S16384x1 (![0] : Fin 1 → Fin S16384x1.rank)
  shapeCasts_S16384x4x768_S32x512x4x768 : S16384x4x768.ShapeCasts S32x512x4x768
  reducesTo_S32x512x4x768_S32x768_d1_2 : S32x512x4x768.ReducesTo [1, 2] S32x768
  h_S_ : 0 < S_.numel
  bcast_S_S32x768 : S_.BroadcastsInDim S32x768 (![] : Fin 0 → Fin S32x768.rank)
  reducesTo_S32x512x4x768_S32x512x768_d2 : S32x512x4x768.ReducesTo [2] S32x512x768
  bcast_S_S32x512x768 : S_.BroadcastsInDim S32x512x768 (![] : Fin 0 → Fin S32x512x768.rank)
  transposes_S32x512x768_S32x768x512_0_2_1 : S32x512x768.Transposes [0, 2, 1] S32x768x512
  scatter_S16384x4x768_S16384x1_S16384x4x768_12_0_0_1_wf : ScatterDims.WF S16384x4x768 S16384x1 S16384x4x768 [1, 2] [0] [0] 1

variable [Facts₀]

def scatter_S16384x4x768_S16384x1_S16384x4x768_12_0_0_1 : ScatterDims S16384x4x768 S16384x1 S16384x4x768 where
  updateWindowDims := [1, 2]
  insertedWindowDims := [0]
  scatterDimsToOperandDims := [0]
  indexVectorDim := 1
  wf := scatter_S16384x4x768_S16384x1_S16384x4x768_12_0_0_1_wf

class Facts : Prop extends Facts₀ where

variable [Facts]
-- ==== Proof.PreRange.lean ====
import proofs.«426509_j84911503442642_3_alg».proof.Proof.Gen.Pre_finite_inputs
import Idealize.ShloMosaic.Lib.ReduceAll
import Idealize.ShloMosaic.Lib.ValueIdx

/-!
# The precondition gives every segment id its range

The precondition is the conjunction of two whole-array tests: every embedding entry is finite, and every
segment id s satisfies 0 ≤ s and s < 512 as a signed 32-bit integer. From the second test each id, read as an
unsigned number, is below 512: a word that is non-negative as a signed integer has the same signed and
unsigned value.
-/

noncomputable section

namespace Cert.SegMean.PreRange

open Idealize.ShloMosaic Idealize.ShloMosaic.ValueIdx Cert.Pre_finite_inputs

instance : Subsingleton S_.Idx := ⟨fun _ _ => funext fun d => d.elim0⟩

/-- A 32-bit word between 0 and 511 as a signed integer is below 512 as an unsigned one. -/
theorem toNat_lt_of_signed_range (w : BitVec 32) (h0 : (0#32 : BitVec 32).toInt ≤ w.toInt)
    (h1 : w.toInt < (512#32 : BitVec 32).toInt) : w.toNat < 512 := by
  have e0 : (0#32 : BitVec 32).toInt = 0 := by decide
  have e1 : (512#32 : BitVec 32).toInt = 512 := by decide
  rw [e0] at h0
  rw [e1] at h1
  rw [BitVec.toInt_eq_toNat_cond] at h0 h1
  have hl := w.isLt
  by_cases hc : 2 * w.toNat < 2 ^ 32
  · rw [if_pos hc] at h0 h1; omega
  · rw [if_neg hc] at h0 h1; omega

/-- Under the precondition every segment id is below 512 as an unsigned number. -/
theorem ids_in_range {F : FTy → Type} [FloatOps F] (E : FVec F S32x4x512x768 .f32) (S : IVec S32x512 32)
    (h : Cert.Pre_finite_inputs.fn (F := F) E S = fun _ => 1#1) (b : Fin 32) (t : Fin 512) :
    (S (ix2 b t)).toNat < 512 := by
  have e := congrFun h ix0
  unfold Cert.Pre_finite_inputs.fn at e
  dsimp only at e
  have e2 := (IntOp.andi_eq_one.mp e).2
  have e3 := Host.reduce_andi_all _ _ _ _ _ e2 (ix2 b t)
  obtain ⟨hge, hlt⟩ := IntOp.andi_eq_one.mp e3
  exact toNat_lt_of_signed_range _ (IntOp.cmpi_sge.mp hge) (IntOp.cmpi_slt.mp hlt)

end Cert.SegMean.PreRange

end
-- ==== Proof.KerPay.lean ====
import proofs.«426509_j84911503442642_3_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.StableHlo.Predicate

/-!
# What the kernel body computes, element by element

One grid step handles two batch rows. From the step's segment-id block (2 × 512 × 1) and its four layer
slabs (each 2 × 1 × 512 × 768) the body forms

* the layer sum  s(n, t, d) = ((0 + e₀) + e₁) + e₂) + e₃  at token t, feature d;
* the one-hot matrix  h(n, t, v) = 1 when token t's segment id is the word slot v, else 0;
* the word output  (Σ_t s(n, t, d) · h(n, t, v)) · 0.25  — a matrix product contracting the token axis;
* the sentence output  (Σ_t s(n, t, d)) · (1/2048).

Over the extended reals a change of float format is the identity, so the two bf16 casts drop out.
-/

set_option maxRecDepth 16384

noncomputable section

open scoped BigOperators

namespace Cert.KernelIdeal.Pay

open Cert.KernelIdeal Cert.KernelIdeal.Gen Idealize.ShloMosaic Idealize.ShloMosaic.ValueIdx

/-- A layer slab viewed without its unit layer axis reads the slab at layer coordinate 0. -/
theorem slab_cast_apply (l : FVec Ideal S2x1x512x768 .f32) (n : Fin 2) (t : Fin 512) (d : Fin 768) :
    shapeCast S2x512x768 l shapeCasts_S2x1x512x768_S2x512x768 (ix3 n t d) = l (ix4 n 0 t d) :=
  shapeCast_apply l shapeCasts_S2x1x512x768_S2x512x768 (ix3 n t d) (ix4 n 0 t d) (by
    rw [Shape.rowMajor_val_four, Shape.rowMajor_val_three]
    show ((n.val * 1 + 0) * 512 + t.val) * 768 + d.val = (n.val * 512 + t.val) * 768 + d.val
    omega)

/-- THE LAYER SUM at (n, t, d): the four slabs' entries added in order onto zero. -/
theorem layerSum_apply (l0 l1 l2 l3 : FVec Ideal S2x1x512x768 .f32) (n : Fin 2) (t : Fin 512) (d : Fin 768) :
    k0_pay1 (F := Ideal) l0 l1 l2 l3 (ix3 n t d)
      = l0 (ix4 n 0 t d) + l1 (ix4 n 0 t d) + l2 (ix4 n 0 t d) + l3 (ix4 n 0 t d) := by
  unfold k0_pay1
  simp only [addf_apply, broadcast_apply, slab_cast_apply]
  show Ideal.ofBits .f32 0x00000000#32 + _ + _ + _ + _ = _
  rw [Ideal.ofBits_zero_f32, zero_add]

/-- A 32-bit word equals the word of a slot number below 512 exactly when its unsigned value is that number. -/
theorem word_eq_slot (w : BitVec 32) (v : Fin 512) : w = BitVec.ofNat 32 v.val ↔ w.toNat = v.val := by
  have hv : v.val < 2 ^ 32 := lt_trans v.isLt (by norm_num)
  constructor
  · intro h; rw [h, BitVec.toNat_ofNat, Nat.mod_eq_of_lt hv]
  · intro h; apply BitVec.eq_of_toNat_eq; rw [h, BitVec.toNat_ofNat, Nat.mod_eq_of_lt hv]

/-- THE ONE-HOT ENTRY at (n, t, v): the id column broadcast along the word axis is compared with the word
    axis's own coordinate; the one-bit answer, widened and converted, is the real 1 or 0. -/
theorem oneHot_apply (sg : IVec S2x512x1 32) (n : Fin 2) (t : Fin 512) (v : Fin 512) :
    (truncf .bf16 (sitofp .f32 (extui 32 (cmpi .eq
        (broadcastTo S2x512x512 (shapeCast S2x512x1 sg shapeCasts_S2x512x1_S2x512x1) broadcasts_S2x512x1_S2x512x512)
        (broadcastTo S2x512x512 (iota .tc S1x512x512 32 [2] iota_S1x512x512_d2_w32) broadcasts_S1x512x512_S2x512x512))
        natLt_1_32)) bitsLt_bf16_f32 : FVec Ideal S2x512x512 .bf16) (ix3 n t v)
      = if (sg (ix3 n t 0)).toNat = v.val then (1 : EReal) else 0 := by
  have hA : broadcastTo S2x512x512 (shapeCast S2x512x1 sg shapeCasts_S2x512x1_S2x512x1) broadcasts_S2x512x1_S2x512x512 (ix3 n t v)
      = sg (ix3 n t 0) := by
    rw [shapeCast_self]
    exact broadcastTo_apply sg broadcasts_S2x512x1_S2x512x512 (ix3 n t v) (ix3 n t 0) (fun a => by
      match a with
      | ⟨0, _⟩ => rfl
      | ⟨1, _⟩ => rfl
      | ⟨2, _⟩ => rfl)
  have hB : broadcastTo S2x512x512 (iota .tc S1x512x512 32 [2] iota_S1x512x512_d2_w32) broadcasts_S1x512x512_S2x512x512 (ix3 n t v)
      = BitVec.ofNat 32 v.val := by
    refine (broadcastTo_apply _ broadcasts_S1x512x512_S2x512x512 (ix3 n t v) (ix3 0 t v) (fun a => by
      match a with
      | ⟨0, _⟩ => rfl
      | ⟨1, _⟩ => rfl
      | ⟨2, _⟩ => rfl)).trans ?_
    exact iota_single_apply .tc S1x512x512 32 2 iota_S1x512x512_d2_w32 (ix3 0 t v)
  rw [truncf_apply, sitofp_apply, extui_apply]
  show ((((IntOp.cmpi .eq (broadcastTo S2x512x512 (shapeCast S2x512x1 sg shapeCasts_S2x512x1_S2x512x1) broadcasts_S2x512x1_S2x512x512 (ix3 n t v))
      (broadcastTo S2x512x512 (iota .tc S1x512x512 32 [2] iota_S1x512x512_d2_w32) broadcasts_S1x512x512_S2x512x512 (ix3 n t v))).setWidth 32).toInt : ℝ) : EReal) = _
  rw [hA, hB]
  by_cases h : (sg (ix3 n t 0)).toNat = v.val
  · rw [if_pos h, StableHlo.Predicate.cmpi_eq_iff.mpr ((word_eq_slot _ v).mpr h)]
    norm_num
  · rw [if_neg h]
    have hne : IntOp.cmpi .eq (sg (ix3 n t 0)) (BitVec.ofNat 32 v.val) = 0#1 :=
      eq_zero_of_ne_one (fun h1 => h ((word_eq_slot _ v).mp (StableHlo.Predicate.cmpi_eq_iff.mp h1)))
    rw [hne]
    norm_num

/-! ### The matrix product's operand indices -/

theorem lhs_axis0 (i : S2x768x512.Idx) (q : dot_S2x512x768_S2x512x512_S2x768x512_1_1_2_2_0_0.contr.Idx) :
    (dot_S2x512x768_S2x512x512_S2x768x512_1_1_2_2_0_0.lhsIdx i q 0).val = (i 0).val := by
  unfold DotDims.lhsIdx
  rw [dif_pos (show (0 : Fin S2x512x768.rank) ∈ dot_S2x512x768_S2x512x512_S2x768x512_1_1_2_2_0_0.lhsBatch by decide)]
  rfl
theorem lhs_axis1 (i : S2x768x512.Idx) (q : dot_S2x512x768_S2x512x512_S2x768x512_1_1_2_2_0_0.contr.Idx) :
    (dot_S2x512x768_S2x512x512_S2x768x512_1_1_2_2_0_0.lhsIdx i q 1).val = (q ⟨0, by decide⟩).val :=
  dot_S2x512x768_S2x512x512_S2x768x512_1_1_2_2_0_0.lhsIdx_val_of_single rfl i q
theorem lhs_axis2 (i : S2x768x512.Idx) (q : dot_S2x512x768_S2x512x512_S2x768x512_1_1_2_2_0_0.contr.Idx) :
    (dot_S2x512x768_S2x512x512_S2x768x512_1_1_2_2_0_0.lhsIdx i q 2).val = (i 1).val := by
  unfold DotDims.lhsIdx
  rw [dif_neg (show ¬(2 : Fin S2x512x768.rank) ∈ dot_S2x512x768_S2x512x512_S2x768x512_1_1_2_2_0_0.lhsBatch by decide),
    dif_pos (show (2 : Fin S2x512x768.rank) ∈ dot_S2x512x768_S2x512x512_S2x768x512_1_1_2_2_0_0.lhsNonContracting by decide)]
  rfl
theorem rhs_axis0 (i : S2x768x512.Idx) (q : dot_S2x512x768_S2x512x512_S2x768x512_1_1_2_2_0_0.contr.Idx) :
    (dot_S2x512x768_S2x512x512_S2x768x512_1_1_2_2_0_0.rhsIdx i q 0).val = (i 0).val := by
  unfold DotDims.rhsIdx
  rw [dif_pos (show (0 : Fin S2x512x512.rank) ∈ dot_S2x512x768_S2x512x512_S2x768x512_1_1_2_2_0_0.rhsBatch by decide)]
  rfl
theorem rhs_axis1 (i : S2x768x512.Idx) (q : dot_S2x512x768_S2x512x512_S2x768x512_1_1_2_2_0_0.contr.Idx) :
    (dot_S2x512x768_S2x512x512_S2x768x512_1_1_2_2_0_0.rhsIdx i q 1).val = (q ⟨0, by decide⟩).val :=
  dot_S2x512x768_S2x512x512_S2x768x512_1_1_2_2_0_0.rhsIdx_val_of_single rfl i q
theorem rhs_axis2 (i : S2x768x512.Idx) (q : dot_S2x512x768_S2x512x512_S2x768x512_1_1_2_2_0_0.contr.Idx) :
    (dot_S2x512x768_S2x512x512_S2x768x512_1_1_2_2_0_0.rhsIdx i q 2).val = (i 2).val := by
  unfold DotDims.rhsIdx
  rw [dif_neg (show ¬(2 : Fin S2x512x512.rank) ∈ dot_S2x512x768_S2x512x512_S2x768x512_1_1_2_2_0_0.rhsBatch by decide),
    dif_pos (show (2 : Fin S2x512x512.rank) ∈ dot_S2x512x768_S2x512x512_S2x768x512_1_1_2_2_0_0.rhsNonContracting by decide)]
  rfl

/-- THE WORD OUTPUT at (n, d, v): the layer sums of the row's tokens, each times its one-hot entry for slot v,
    summed over the tokens, times the word of 0.25. -/
theorem wordPay_apply (sg : IVec S2x512x1 32) (l0 l1 l2 l3 : FVec Ideal S2x1x512x768 .f32)
    (n : Fin 2) (d : Fin 768) (v : Fin 512) :
    k0_pay2 (F := Ideal) sg l0 l1 l2 l3 (ix3 n d v)
      = (∑ t : Fin 512, (l0 (ix4 n 0 t d) + l1 (ix4 n 0 t d) + l2 (ix4 n 0 t d) + l3 (ix4 n 0 t d))
            * (if (sg (ix3 n t 0)).toNat = v.val then (1 : EReal) else 0))
          * Ideal.ofBits .f32 0x3E800000#32 := by
  unfold k0_pay2
  simp only [mulf_apply, broadcast_apply]
  refine congrArg (· * Ideal.ofBits .f32 0x3E800000#32) ?_
  simp only [matmul]
  rw [Ideal.matmul_constant_zero_apply,
    ← Equiv.sum_comp (contrEquiv1 dot_S2x512x768_S2x512x512_S2x768x512_1_1_2_2_0_0 512 rfl rfl).symm]
  refine Finset.sum_congr rfl fun t _ => ?_
  have hk := contrEquiv1_symm_val dot_S2x512x768_S2x512x512_S2x768x512_1_1_2_2_0_0 512 rfl rfl t
  have el : dot_S2x512x768_S2x512x512_S2x768x512_1_1_2_2_0_0.lhsIdx (ix3 n d v)
      ((contrEquiv1 dot_S2x512x768_S2x512x512_S2x768x512_1_1_2_2_0_0 512 rfl rfl).symm t) = ix3 n t d :=
    funext fun a => Fin.ext (by
      match a with
      | ⟨0, _⟩ => exact lhs_axis0 _ _
      | ⟨1, _⟩ => exact (lhs_axis1 _ _).trans hk
      | ⟨2, _⟩ => exact lhs_axis2 _ _)
  have er : dot_S2x512x768_S2x512x512_S2x768x512_1_1_2_2_0_0.rhsIdx (ix3 n d v)
      ((contrEquiv1 dot_S2x512x768_S2x512x512_S2x768x512_1_1_2_2_0_0 512 rfl rfl).symm t) = ix3 n t v :=
    funext fun a => Fin.ext (by
      match a with
      | ⟨0, _⟩ => exact rhs_axis0 _ _
      | ⟨1, _⟩ => exact (rhs_axis1 _ _).trans hk
      | ⟨2, _⟩ => exact rhs_axis2 _ _)
  rw [el, er, truncf_apply, layerSum_apply, oneHot_apply]

/-- THE SENTENCE OUTPUT at (n, 0, d): the layer sums of the row's tokens summed, times the word of 1/2048. -/
theorem sentPay_apply (l0 l1 l2 l3 : FVec Ideal S2x1x512x768 .f32) (n : Fin 2) (d : Fin 768) :
    k0_pay3 (F := Ideal) l0 l1 l2 l3 (ix3 n 0 d)
      = (∑ t : Fin 512, (l0 (ix4 n 0 t d) + l1 (ix4 n 0 t d) + l2 (ix4 n 0 t d) + l3 (ix4 n 0 t d)))
          * Ideal.ofBits .f32 0x3A000000#32 := by
  unfold k0_pay3
  simp only [mulf_apply, broadcast_apply]
  refine congrArg (· * Ideal.ofBits .f32 0x3A000000#32) ?_
  refine (shapeCast_apply _ shapeCasts_S2x768_S2x1x768 (ix3 n 0 d) (ix2 n d) (by
    rw [Shape.rowMajor_val_two, Shape.rowMajor_val_three]
    show n.val * 768 + d.val = (n.val * 1 + 0) * 768 + d.val
    omega)).trans ?_
  refine (Ideal.multiReduction_add_single (k0_pay1 (F := Ideal) l0 l1 l2 l3) 0x00000000#32 reduces_S2x512x768_S2x768
    (.inl rfl) rfl (ix2 n d)).trans ?_
  show ∑ t : Fin 512, k0_pay1 (F := Ideal) l0 l1 l2 l3 (reduces_S2x512x768_S2x768.lift (ix2 n d) t) = _
  refine Finset.sum_congr rfl fun t _ => ?_
  have e : reduces_S2x512x768_S2x768.lift (ix2 n d) t = ix3 n t d :=
    funext fun a => Fin.ext (by
      match a with
      | ⟨0, _⟩ => rfl
      | ⟨1, _⟩ => rfl
      | ⟨2, _⟩ => rfl)
  rw [e, layerSum_apply]

end Cert.KernelIdeal.Pay

end
-- ==== Proof.Spec.lean ====
import Idealize.ShloMosaic.Lib.ValueIdx
import Idealize.ShloMosaic.PureOps.Ideal
import Mathlib.Algebra.BigOperators.Group.Finset.Basic
import Mathlib.Algebra.BigOperators.Group.Finset.Piecewise
import Mathlib.Algebra.BigOperators.Fin

/-!
# Word means and sentence means of segmented token embeddings

E holds, for 32 batch rows, 4 layers, 512 tokens and 768 features, one extended real each; S gives every
token of every batch row a segment id (a 32-bit word).

* laySum E b t d is the sum over the four layers of token t's feature d;
* wordMean E S b d v is a quarter of the sum of laySum over the tokens of row b whose id is the word slot v
  (an empty slot gives 0);
* sentMean E b d is 1/2048 of the sum of laySum over all 512 tokens of row b.

The algebra that joins the two programs: a product with a 0/1 indicator is a choice between the factor and 0;
a sum of four filtered sums is one sum of four-term sums under the indicator; and summing, over every slot,
the tokens that fall in the slot is summing over all tokens, because each token falls in exactly one slot.
Only commutativity and associativity of + and the laws x·1 = x, x·0 = 0 are used, and they hold on all
extended reals, infinities included.
-/

noncomputable section

open scoped BigOperators

namespace Cert.SegMean

open Idealize.ShloMosaic Idealize.ShloMosaic.ValueIdx

/-- The layer sum of token t of row b in feature d. -/
def laySum (E : (⟨4, ![32, 4, 512, 768]⟩ : Shape).Idx → EReal) (b : Fin 32) (t : Fin 512) (d : Fin 768) : EReal :=
  E (ix4 b 0 t d) + E (ix4 b 1 t d) + E (ix4 b 2 t d) + E (ix4 b 3 t d)

/-- The mean over layers of word slot v of row b in feature d. -/
def wordMean (E : (⟨4, ![32, 4, 512, 768]⟩ : Shape).Idx → EReal) (S : (⟨2, ![32, 512]⟩ : Shape).Idx → BitVec 32)
    (b : Fin 32) (d : Fin 768) (v : Fin 512) : EReal :=
  (∑ t : Fin 512, if (S (ix2 b t)).toNat = v.val then laySum E b t d else 0) * ((1 / 4 : ℝ) : EReal)

/-- The mean over word slots and layers of row b in feature d. -/
def sentMean (E : (⟨4, ![32, 4, 512, 768]⟩ : Shape).Idx → EReal) (b : Fin 32) (d : Fin 768) : EReal :=
  (∑ t : Fin 512, laySum E b t d) * ((1 / 2048 : ℝ) : EReal)

/-- A sum of products with 0/1 indicators keeps the factors the indicator selects. -/
theorem sum_mul_indicator {ι : Type*} [Fintype ι] (c : ι → Prop) [DecidablePred c] (f : ι → EReal) :
    ∑ t, f t * (if c t then (1 : EReal) else 0) = ∑ t, if c t then f t else 0 :=
  Finset.sum_congr rfl fun t _ => by
    by_cases h : c t
    · rw [if_pos h, if_pos h, mul_one]
    · rw [if_neg h, if_neg h, mul_zero]

/-- Four sums over the same selected indices are one sum, over those indices, of the four-term sums. -/
theorem sum_four_selected {ι : Type*} [Fintype ι] (c : ι → Prop) [DecidablePred c] (f0 f1 f2 f3 : ι → EReal) :
    (∑ t, if c t then f0 t else 0) + (∑ t, if c t then f1 t else 0) + (∑ t, if c t then f2 t else 0)
        + (∑ t, if c t then f3 t else 0)
      = ∑ t, if c t then f0 t + f1 t + f2 t + f3 t else 0 := by
  rw [← Finset.sum_add_distrib, ← Finset.sum_add_distrib, ← Finset.sum_add_distrib]
  refine Finset.sum_congr rfl fun t _ => ?_
  by_cases h : c t
  · simp only [if_pos h]
  · simp only [if_neg h, add_zero]

/-- Every index falls in exactly one slot: summing slot by slot the indices of each slot is summing them all. -/
theorem sum_slots {ι κ : Type*} [Fintype ι] [Fintype κ] [DecidableEq κ] (g : ι → κ) (f : ι → EReal) :
    ∑ v : κ, ∑ t, (if g t = v then f t else 0) = ∑ t, f t := by
  rw [Finset.sum_comm]
  refine Finset.sum_congr rfl fun t _ => ?_
  rw [Finset.sum_ite_eq]
  simp

/-- The same with the slot of an index given as a number below the slot count. -/
theorem sum_slots_val {ι : Type*} [Fintype ι] {n : Nat} (g : ι → Fin n) (f : ι → EReal) :
    ∑ v : Fin n, ∑ t, (if (g t).val = v.val then f t else 0) = ∑ t, f t := by
  simp only [Fin.val_inj]
  exact sum_slots g f

end Cert.SegMean

end
-- ==== Proof.Consts.lean ====
import Idealize.ShloMosaic.PureOps.Ideal

/-!
# The four scaling constants as real numbers

The two programs spell four single-precision words: the kernel multiplies by 0.25 and by 1/2048, the
reference divides by 4 and by 2048. Each word is a power of two, so it denotes that real number exactly.
-/

noncomputable section

namespace Cert.SegMean.Consts

open Idealize.ShloMosaic

/-- The word of 0.25 denotes the real 1/4. -/
theorem ofBits_quarter : Ideal.ofBits .f32 0x3E800000#32 = ((1 / 4 : ℝ) : EReal) := by
  simp [Ideal.ofBits, Ideal.ieee, -EReal.coe_mul]; norm_num

/-- The word of 4.0 denotes the real 4. -/
theorem ofBits_four : Ideal.ofBits .f32 0x40800000#32 = ((4 : ℝ) : EReal) := by
  simp [Ideal.ofBits, Ideal.ieee, -EReal.coe_mul]; norm_num

/-- The word of 4.8828125e-4 denotes the real 1/2048. -/
theorem ofBits_inv2048 : Ideal.ofBits .f32 0x3A000000#32 = ((1 / 2048 : ℝ) : EReal) := by
  simp [Ideal.ofBits, Ideal.ieee, -EReal.coe_mul]; norm_num

/-- The word of 2048.0 denotes the real 2048. -/
theorem ofBits_2048 : Ideal.ofBits .f32 0x45000000#32 = ((2048 : ℝ) : EReal) := by
  simp [Ideal.ofBits, Ideal.ieee, -EReal.coe_mul]; norm_num

/-- The all-zero word denotes 0. -/
theorem ofBits_zero : Ideal.ofBits .f32 0x00000000#32 = 0 := by
  simp [Ideal.ofBits, Ideal.ieee]

end Cert.SegMean.Consts

end
-- ==== Proof.KerValue.lean ====
import proofs.«426509_j84911503442642_3_alg».proof.Proof.Gen.KernelIdeal.Frame
import proofs.«426509_j84911503442642_3_alg».proof.Proof.KerPay
import proofs.«426509_j84911503442642_3_alg».proof.Proof.Spec
import proofs.«426509_j84911503442642_3_alg».proof.Proof.Consts
import Idealize.ShloMosaic.Lib.Pipeline.Value
import Idealize.ShloMosaic.Lib.StableHlo.Run

/-!
# What the kernel's run leaves in its two results

The grid has 16 steps; step p stages batch rows 2p and 2p + 1: the id block is rows 2p, 2p + 1 of the id
column (the id array with a unit axis appended by the host before the launch), the embedding block rows
2p, 2p + 1 of the embeddings, and the two output blocks are rows 2p, 2p + 1 of the word array (32 × 768 × 512)
and of the sentence array (32 × 1 × 768). The 16 blocks of each output tile its array, so after the run the
word array holds the word mean at every index and the sentence array the sentence mean; the host then drops
the sentence array's unit axis.
-/

set_option maxRecDepth 16384

noncomputable section

open scoped BigOperators

namespace Cert.KernelIdeal.KerValue

open Cert.KernelIdeal Cert.KernelIdeal.Gen Idealize.ShloMosaic Idealize.ShloMosaic.TcCoe Idealize.SL.Sem
  Idealize.ShloMosaic.ValueIdx Cert.SegMean
open Idealize.ShloMosaic.Pipeline (Dat)

variable (m : (ℓ : Loc nD τ sig) → Buf (Elt Ideal) ℓ) (ρ : Dev nD → PrngReg)

/-- The embedding array and the id array as launched. -/
abbrev Earr (c : Dev nD) : S32x4x512x768.Idx → EReal := m ((c : Thread nD τ).loc main_arg0)
abbrev Sarr (c : Dev nD) : S32x512.Idx → BitVec 32 := m ((c : Thread nD τ).loc main_arg1)

/-- The word array, the sentence array with its unit axis, and the sentence result, each as one function of the
    arguments. -/
def Gword (c : Dev nD) : S32x768x512.Idx → EReal := fun i =>
  wordMean (Earr m c) (Sarr m c) ⟨(i 0).val, (i 0).isLt⟩ ⟨(i 1).val, (i 1).isLt⟩ ⟨(i 2).val, (i 2).isLt⟩
def Gsent3 (c : Dev nD) : S32x1x768.Idx → EReal := fun i =>
  sentMean (Earr m c) ⟨(i 0).val, (i 0).isLt⟩ ⟨(i 2).val, (i 2).isLt⟩
def Gsent (c : Dev nD) : S32x768.Idx → EReal := fun i =>
  sentMean (Earr m c) ⟨(i 0).val, (i 0).isLt⟩ ⟨(i 1).val, (i 1).isLt⟩

/-! ## The grid: every window's block index at step t is (t, 0, …) -/

theorem idx_facts : ∀ t : Fin cfg0.N,
    win0_0.index t (0 : Fin 3) = t.val ∧ win0_0.index t (1 : Fin 3) = 0 ∧ win0_0.index t (2 : Fin 3) = 0
    ∧ win0_1.index t (0 : Fin 4) = t.val ∧ win0_1.index t (1 : Fin 4) = 0 ∧ win0_1.index t (2 : Fin 4) = 0
    ∧ win0_1.index t (3 : Fin 4) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ t.val < 16 :=
  (by decide +kernel : ∀ t : Fin grid0.N, _)

theorem hz3 : (![0, 0, 0] : Fin 3 → Nat) = fun _ => 0 := funext fun a => by fin_cases a <;> rfl

/-! ## The staged blocks read at an index -/

/-- The id column the region finds: the id array with a unit axis appended. -/
theorem idColumn (c : Dev nD) : (V m c main_v0 : S32x512x1.Idx → BitVec 32)
    = broadcastInDim S32x512x1 ![0, 1] bcast_S32x512_S32x512x1_0_1 (m ((c : Thread nD τ).loc main_arg1)) := by
  show StableHlo.after hostOps0 (fun b => m (c, b)) (Proc.devRef .tc main_v0) = _
  after_results

/-- The two input blocks at step t, at their literal types. -/
abbrev segBlk (c : Dev nD) (t : Fin cfg0.N) : Vec Ideal S2x512x1 .i32 := iblk m c 0 t
abbrev embBlk (c : Dev nD) (t : Fin cfg0.N) : Vec Ideal S2x4x512x768 .f32 := iblk m c 1 t

/-- Entry (n, k, 0) of step t's id block is the id of token k of batch row 2t + n. -/
theorem segBlk_apply (c : Dev nD) (t : Fin cfg0.N) (ht : t.val < 16) (n : Fin 2) (k : Fin 512) :
    segBlk m c t (ix3 n k 0) = Sarr m c (ix2 ⟨2 * t.val + n.val, by omega⟩ k) := by
  obtain ⟨e0, e1, e2, -⟩ := idx_facts t
  show V m c main_v0 (((cfg0.win 0).blk t).view.emb (ix3 n k 0)) = _
  rw [idColumn]
  refine broadcastInDim_apply _ bcast_S32x512_S32x512x1_0_1 _ _ (ix2 ⟨2 * t.val + n.val, by omega⟩ k) (fun a => ?_)
  match a with
  | ⟨0, _⟩ =>
    show 2 * t.val + n.val = if (32 : Nat) = 1 then 0 else win0_0.index t (0 : Fin 3) * 2 + 1 * n.val
    rw [if_neg (by decide), e0]; omega
  | ⟨1, _⟩ =>
    show k.val = if (512 : Nat) = 1 then 0 else win0_0.index t (1 : Fin 3) * 512 + 1 * k.val
    rw [if_neg (by decide), e1]; omega

/-- Entry (n, l, k, d) of step t's embedding block is the embedding entry (2t + n, l, k, d). -/
theorem embBlk_apply (c : Dev nD) (t : Fin cfg0.N) (ht : t.val < 16) (n : Fin 2) (l : Fin 4) (k : Fin 512) (d : Fin 768) :
    embBlk m c t (ix4 n l k d) = Earr m c (ix4 ⟨2 * t.val + n.val, by omega⟩ l k d) := by
  obtain ⟨-, -, -, e0, e1, e2, e3, -⟩ := idx_facts t
  show V m c main_arg0 (((cfg0.win 1).blk t).view.emb (ix4 n l k d)) = _
  rw [V_main_arg0]
  refine congrArg (m ((c : Thread nD τ).loc main_arg0)) (funext fun a => Fin.ext ?_)
  match a with
  | ⟨0, _⟩ => show win0_1.index t (0 : Fin 4) * 2 + 1 * n.val = 2 * t.val + n.val; rw [e0]; omega
  | ⟨1, _⟩ => show win0_1.index t (1 : Fin 4) * 4 + 1 * l.val = l.val; rw [e1]; omega
  | ⟨2, _⟩ => show win0_1.index t (2 : Fin 4) * 512 + 1 * k.val = k.val; rw [e2]; omega
  | ⟨3, _⟩ => show win0_1.index t (3 : Fin 4) * 768 + 1 * d.val = d.val; rw [e3]; omega

/-! ## One step's outputs from its blocks, over any blocks with these entries -/

/-- The four layer loads of an embedding block: load l at (n, 0, k, d) reads the block at (n, l, k, d). -/
theorem ld_layer0 (x1 : Vec Ideal S2x4x512x768 .f32) (n : Fin 2) (k : Fin 512) (d : Fin 768) :
    View.ld x1 r0_1 (ix4 n 0 k d) = x1 (ix4 n 0 k d) :=
  congrArg x1 (funext fun a => Fin.ext (by
    match a with
    | ⟨0, _⟩ => show 0 + 1 * n.val = n.val; omega
    | ⟨1, _⟩ => show 0 + 1 * 0 = 0; omega
    | ⟨2, _⟩ => show 0 + 1 * k.val = k.val; omega
    | ⟨3, _⟩ => show 0 + 1 * d.val = d.val; omega))
theorem ld_layer1 (x1 : Vec Ideal S2x4x512x768 .f32) (n : Fin 2) (k : Fin 512) (d : Fin 768) :
    View.ld x1 r0_2 (ix4 n 0 k d) = x1 (ix4 n 1 k d) :=
  congrArg x1 (funext fun a => Fin.ext (by
    match a with
    | ⟨0, _⟩ => show 0 + 1 * n.val = n.val; omega
    | ⟨1, _⟩ => show 1 + 1 * 0 = 1; omega
    | ⟨2, _⟩ => show 0 + 1 * k.val = k.val; omega
    | ⟨3, _⟩ => show 0 + 1 * d.val = d.val; omega))
theorem ld_layer2 (x1 : Vec Ideal S2x4x512x768 .f32) (n : Fin 2) (k : Fin 512) (d : Fin 768) :
    View.ld x1 r0_3 (ix4 n 0 k d) = x1 (ix4 n 2 k d) :=
  congrArg x1 (funext fun a => Fin.ext (by
    match a with
    | ⟨0, _⟩ => show 0 + 1 * n.val = n.val; omega
    | ⟨1, _⟩ => show 2 + 1 * 0 = 2; omega
    | ⟨2, _⟩ => show 0 + 1 * k.val = k.val; omega
    | ⟨3, _⟩ => show 0 + 1 * d.val = d.val; omega))
theorem ld_layer3 (x1 : Vec Ideal S2x4x512x768 .f32) (n : Fin 2) (k : Fin 512) (d : Fin 768) :
    View.ld x1 r0_4 (ix4 n 0 k d) = x1 (ix4 n 3 k d) :=
  congrArg x1 (funext fun a => Fin.ext (by
    match a with
    | ⟨0, _⟩ => show 0 + 1 * n.val = n.val; omega
    | ⟨1, _⟩ => show 3 + 1 * 0 = 3; omega
    | ⟨2, _⟩ => show 0 + 1 * k.val = k.val; omega
    | ⟨3, _⟩ => show 0 + 1 * d.val = d.val; omega))

/-- Step p's word block at (n, d, v) is the word mean of batch row 2p + n. -/
theorem word_block (E : S32x4x512x768.Idx → EReal) (S : S32x512.Idx → BitVec 32)
    (x0 : Vec Ideal S2x512x1 .i32) (x1 : Vec Ideal S2x4x512x768 .f32) (p : Nat) (hp : p < 16)
    (h0 : ∀ (n : Fin 2) (k : Fin 512), x0 (ix3 n k 0) = S (ix2 ⟨2 * p + n.val, by omega⟩ k))
    (h1 : ∀ (n : Fin 2) (l : Fin 4) (k : Fin 512) (d : Fin 768),
      x1 (ix4 n l k d) = E (ix4 ⟨2 * p + n.val, by omega⟩ l k d))
    (n : Fin 2) (d : Fin 768) (v : Fin 512) :
    k0_pay2 (F := Ideal) (View.ld x0 r0_0) (View.ld x1 r0_1) (View.ld x1 r0_2) (View.ld x1 r0_3) (View.ld x1 r0_4)
        (ix3 n d v)
      = wordMean E S ⟨2 * p + n.val, by omega⟩ d v := by
  rw [Cert.KernelIdeal.Pay.wordPay_apply, sum_mul_indicator, Cert.SegMean.Consts.ofBits_quarter]
  unfold wordMean laySum
  refine congrArg (· * ((1 / 4 : ℝ) : EReal)) (Finset.sum_congr rfl fun k _ => ?_)
  rw [View.ld_unit_zero (S := S2x512x1) hz3, ld_layer0, ld_layer1, ld_layer2, ld_layer3, h0, h1, h1, h1, h1]

/-- Step p's sentence block at (n, 0, d) is the sentence mean of batch row 2p + n. -/
theorem sent_block (E : S32x4x512x768.Idx → EReal)
    (x1 : Vec Ideal S2x4x512x768 .f32) (p : Nat) (hp : p < 16)
    (h1 : ∀ (n : Fin 2) (l : Fin 4) (k : Fin 512) (d : Fin 768),
      x1 (ix4 n l k d) = E (ix4 ⟨2 * p + n.val, by omega⟩ l k d))
    (n : Fin 2) (d : Fin 768) :
    k0_pay3 (F := Ideal) (View.ld x1 r0_1) (View.ld x1 r0_2) (View.ld x1 r0_3) (View.ld x1 r0_4) (ix3 n 0 d)
      = sentMean E ⟨2 * p + n.val, by omega⟩ d := by
  rw [Cert.KernelIdeal.Pay.sentPay_apply, Cert.SegMean.Consts.ofBits_inv2048]
  unfold sentMean laySum
  refine congrArg (· * ((1 / 2048 : ℝ) : EReal)) (Finset.sum_congr rfl fun k _ => ?_)
  rw [ld_layer0, ld_layer1, ld_layer2, ld_layer3, h1, h1, h1, h1]

/-! ## What each step writes back -/

/-- Step t writes back block t of the word array's function. -/
theorem flushedWord_eq (c : Dev nD) (t : Fin cfg0.N) :
    (dats m 0 c).flushed 2 t = ((cfg0.win 2).blk t).view.read (Elt Ideal) (Gword m c) := by
  obtain ⟨-, -, -, -, -, -, -, e0, e1, e2, -, -, -, ht⟩ := idx_facts t
  show (cfg0.win 2).cut (grid0.coords t) ((dats m 0 c).after 2 t) = _
  rw [after0_2]
  unfold out0_2
  rw [View.canon_unit_zero hz3]
  funext j
  show k0_pay2 (F := Ideal) (View.ld (segBlk m c t) r0_0) (View.ld (embBlk m c t) r0_1) (View.ld (embBlk m c t) r0_2)
      (View.ld (embBlk m c t) r0_3) (View.ld (embBlk m c t) r0_4) j = Gword m c (((cfg0.win 2).blk t).view.emb j)
  obtain ⟨n, d, v, rfl⟩ : ∃ (n : Fin 2) (d : Fin 768) (v : Fin 512), j = ix3 n d v := ⟨j 0, j 1, j 2, eq_ix3 j⟩
  refine (word_block (Earr m c) (Sarr m c) (segBlk m c t) (embBlk m c t) t.val ht
    (segBlk_apply m c t ht) (embBlk_apply m c t ht) n d v).trans ?_
  unfold Gword
  congr 1
  · apply Fin.ext
    show 2 * t.val + n.val = win0_2.index t (0 : Fin 3) * 2 + 1 * n.val
    rw [e0]; omega
  · apply Fin.ext
    show d.val = win0_2.index t (1 : Fin 3) * 768 + 1 * d.val
    rw [e1]; omega
  · apply Fin.ext
    show v.val = win0_2.index t (2 : Fin 3) * 512 + 1 * v.val
    rw [e2]; omega

/-- Step t writes back block t of the sentence array's function. -/
theorem flushedSent_eq (c : Dev nD) (t : Fin cfg0.N) :
    (dats m 0 c).flushed 3 t = ((cfg0.win 3).blk t).view.read (Elt Ideal) (Gsent3 m c) := by
  obtain ⟨-, -, -, -, -, -, -, -, -, -, e0, e1, e2, ht⟩ := idx_facts t
  show (cfg0.win 3).cut (grid0.coords t) ((dats m 0 c).after 3 t) = _
  rw [after0_3]
  unfold out0_3
  rw [View.canon_unit_zero hz3]
  funext j
  show k0_pay3 (F := Ideal) (View.ld (embBlk m c t) r0_1) (View.ld (embBlk m c t) r0_2)
      (View.ld (embBlk m c t) r0_3) (View.ld (embBlk m c t) r0_4) j = Gsent3 m c (((cfg0.win 3).blk t).view.emb j)
  obtain ⟨n, u, d, rfl⟩ : ∃ (n : Fin 2) (u : Fin 1) (d : Fin 768), j = ix3 n u d := ⟨j 0, j 1, j 2, eq_ix3 j⟩
  obtain rfl : u = 0 := Subsingleton.elim _ _
  refine (sent_block (Earr m c) (embBlk m c t) t.val ht (embBlk_apply m c t ht) n d).trans ?_
  unfold Gsent3
  congr 1
  · apply Fin.ext
    show 2 * t.val + n.val = win0_3.index t (0 : Fin 3) * 2 + 1 * n.val
    rw [e0]; omega
  · apply Fin.ext
    show d.val = win0_3.index t (2 : Fin 3) * 768 + 1 * d.val
    rw [e2]; omega

/-! ## The blocks tile the arrays -/

theorem mem_blkWord (t : Fin cfg0.N) (i : S32x768x512.Idx) :
    i ∈ ((cfg0.win 2).blk t).view.set ↔ ∀ a : Fin 3, win0_2.index t a * S2x768x512.size a ≤ (i a).val
      ∧ (i a).val < win0_2.index t a * S2x768x512.size a + S2x768x512.size a := by
  show i ∈ ((View.whole main_v1_0).slice (win0_2.rect t)).set ↔ _
  rw [View.set_slice_whole, Rect.mem_set_unit]
  exact Iff.rfl

theorem mem_blkSent (t : Fin cfg0.N) (i : S32x1x768.Idx) :
    i ∈ ((cfg0.win 3).blk t).view.set ↔ ∀ a : Fin 3, win0_3.index t a * S2x1x768.size a ≤ (i a).val
      ∧ (i a).val < win0_3.index t a * S2x1x768.size a + S2x1x768.size a := by
  show i ∈ ((View.whole main_v1_1).slice (win0_3.rect t)).set ↔ _
  rw [View.set_slice_whole, Rect.mem_set_unit]
  exact Iff.rfl

/-- Row r of the word array is in the block of step r / 2. -/
theorem coverWord (i : S32x768x512.Idx) :
    ∃ t : Fin cfg0.N, (cfg0.win 2).flush t = true ∧ i ∈ ((cfg0.win 2).blk t).view.set := by
  have hi0 : (i 0).val < 32 := (i 0).isLt
  have hi1 : (i 1).val < 768 := (i 1).isLt
  have hi2 : (i 2).val < 512 := (i 2).isLt
  have hN : cfg0.N = 16 := N_0
  refine ⟨⟨(i 0).val / 2, by rw [hN]; omega⟩, flush0_2 _, ?_⟩
  obtain ⟨-, -, -, -, -, -, -, e0, e1, e2, -⟩ := idx_facts ⟨(i 0).val / 2, by rw [hN]; omega⟩
  rw [mem_blkWord]
  intro a
  match a with
  | ⟨0, _⟩ =>
    show win0_2.index _ (0 : Fin 3) * 2 ≤ (i 0).val ∧ (i 0).val < win0_2.index _ (0 : Fin 3) * 2 + 2
    rw [e0]; show (i 0).val / 2 * 2 ≤ (i 0).val ∧ (i 0).val < (i 0).val / 2 * 2 + 2; omega
  | ⟨1, _⟩ =>
    show win0_2.index _ (1 : Fin 3) * 768 ≤ (i 1).val ∧ (i 1).val < win0_2.index _ (1 : Fin 3) * 768 + 768
    rw [e1]; omega
  | ⟨2, _⟩ =>
    show win0_2.index _ (2 : Fin 3) * 512 ≤ (i 2).val ∧ (i 2).val < win0_2.index _ (2 : Fin 3) * 512 + 512
    rw [e2]; omega

theorem coverSent (i : S32x1x768.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 768 := (i 2).isLt
  have hN : cfg0.N = 16 := N_0
  refine ⟨⟨(i 0).val / 2, by rw [hN]; omega⟩, flush0_3 _, ?_⟩
  obtain ⟨-, -, -, -, -, -, -, -, -, -, e0, e1, e2, -⟩ := idx_facts ⟨(i 0).val / 2, by rw [hN]; omega⟩
  rw [mem_blkSent]
  intro a
  match a with
  | ⟨0, _⟩ =>
    show win0_3.index _ (0 : Fin 3) * 2 ≤ (i 0).val ∧ (i 0).val < win0_3.index _ (0 : Fin 3) * 2 + 2
    rw [e0]; show (i 0).val / 2 * 2 ≤ (i 0).val ∧ (i 0).val < (i 0).val / 2 * 2 + 2; omega
  | ⟨1, _⟩ =>
    show win0_3.index _ (1 : Fin 3) * 1 ≤ (i 1).val ∧ (i 1).val < win0_3.index _ (1 : Fin 3) * 1 + 1
    rw [e1]; omega
  | ⟨2, _⟩ =>
    show win0_3.index _ (2 : Fin 3) * 768 ≤ (i 2).val ∧ (i 2).val < win0_3.index _ (2 : Fin 3) * 768 + 768
    rw [e2]; omega

/-- After the run the word array holds the word mean everywhere, the sentence array the sentence mean. -/
theorem finalWord (c : Dev nD) : (dats m 0 c).arrAt 2 cfg0.N = Gword m c :=
  (dats m 0 c).arrAt_eq_of_cover 2 (Gword m c) (fun t _ => flushedWord_eq m c t) (coverWord)
theorem finalSent (c : Dev nD) : (dats m 0 c).arrAt 3 cfg0.N = Gsent3 m c :=
  (dats m 0 c).arrAt_eq_of_cover 3 (Gsent3 m c) (fun t _ => flushedSent_eq m c t) (coverSent)

/-! ## The host line after the region, and the run -/

/-- The sentence result is the sentence array without its unit axis. -/
theorem tailSent (c : Dev nD) :
    Pipeline.afterTail₀ cfgs (dats m) 0 (V0 m) [hostOps1] c main_v2 = Gsent m c := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1_1) = Gsent3 m c :=
    (Pipeline.withArrays_arr spec0 launch0.win.arr_inj c _ _ 3).trans (finalSent m c)
  funext i
  obtain ⟨b, d, rfl⟩ : ∃ (b : Fin 32) (d : Fin 768), i = ix2 b d := ⟨i 0, i 1, eq_ix2 i⟩
  show shapeCast S32x768 (Pipeline.withArrays (cfgs 0).spec c (V0 m c) (fun w => (dats m 0 c).arrAt w (cfgs 0).N)
      (Proc.devRef .tc main_v1_1)) shapeCasts_S32x1x768_S32x768 (ix2 b d) = _
  rw [hw]
  exact shapeCast_apply (Gsent3 m c) shapeCasts_S32x1x768_S32x768 (ix2 b d) (ix3 b 0 d) (by
    rw [Shape.rowMajor_val_three, Shape.rowMajor_val_two]
    show (b.val * 1 + 0) * 768 + d.val = b.val * 768 + d.val
    omega)

/-- THE KERNEL'S RUN: every weakly fair execution ends with the word result at the word mean, the sentence
    result at the sentence mean, and the two arguments as launched. -/
theorem run : θ_run defs (onTc (τ := τ) (main (F := Ideal))) ⟨m, fun _ => 0, ρ⟩ fun r => ∀ c : Dev nD,
      r.2.mem ((c : Thread nD τ).loc main_v1_0) = Gword m c
      ∧ r.2.mem ((c : Thread nD τ).loc main_v2) = Gsent m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (finalWord m c),
      ((h c).2 main_v2 (Pipeline.mem_restRefs_of main_v2 (by decide) (by decide))).trans (tailSent m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c)⟩)
    (run_main m ρ)

end Cert.KernelIdeal.KerValue

end
-- ==== Proof.LibScatterAddPlanes.lean ====
import Idealize.ShloMosaic.Lib.ValueIdx
import Idealize.ShloMosaic.PureOps.Contract
import Mathlib.Algebra.BigOperators.Group.Finset.Basic
import Mathlib.Algebra.BigOperators.Group.Finset.Piecewise

/-!
# Scatter-add of planes, read at an index

The segment sum of a stack of matrices: an operand of N planes, each A × D, receives n update planes,
update plane e going to the operand plane named by the e-th index word. The word is read as a SIGNED
integer and is NOT clamped: an update plane whose word is negative or at least N lands nowhere and is
dropped. Over the extended reals the result element (v, a, k) is the operand's element plus the sum of
the update elements (e, a, k) over exactly those e whose index word equals v.

* resultIdx_planes says where one update element lands;
* hostScatterAdd_planes / scatterAdd_planes give the sum at (v, a, k);
* sum_idx3 splits a sum over a rank-3 index set into its three coordinate sums.

Every statement is for arbitrary extents N, A, D, n and any record of dimension numbers whose lists
are the ones named by the hypotheses (plane axis 0 inserted and start-indexed, the index vector on axis
1 of the n × 1 index column, axes 1 and 2 window axes), so each applies to a concrete record with rfl
for every list.
-/

open scoped BigOperators

namespace Cert.LibScatterAddPlanes

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the iterated sum over the coordinates. -/
theorem sum_idx3 {M : Type*} [AddCommMonoid M] {n0 n1 n2 : Nat} (f : (⟨3, ![n0, n1, n2]⟩ : Shape).Idx → M) :
    ∑ i, f i = ∑ e : Fin n0, ∑ a : Fin n1, ∑ k : Fin n2, f (ix3 e a k) := by
  rw [← Equiv.sum_comp (idxEquiv3 (n0 := n0) (n1 := n1) (n2 := n2)).symm f, Fintype.sum_prod_type]
  refine Finset.sum_congr rfl (fun e _ => ?_)
  rw [Fintype.sum_prod_type]
  rfl

/-- WHERE AN UPDATE ELEMENT LANDS: update element (e, a', k') lands on operand element (v, a, k) exactly
    when the e-th index word, read signed, is v, and the two in-plane coordinates agree. (On the plane
    axis the landing coordinate is the unclamped start plus window coordinate 0; on each in-plane axis it
    is start 0 plus the update's coordinate; a landing point outside the operand is no point at all.) -/
theorem resultIdx_planes {N A D n w : Nat} (d : ScatterDims ⟨3, ![N, A, D]⟩ ⟨2, ![n, 1]⟩ ⟨3, ![n, A, D]⟩)
    (huw : d.updateWindowDims = [1, 2]) (hiw : d.insertedWindowDims = [0])
    (hsd : d.scatterDimsToOperandDims = [0]) (hivd : d.indexVectorDim = 1)
    (idx : IVec ⟨2, ![n, 1]⟩ w) (e : Fin n) (a' : Fin A) (k' : Fin D) (v : Fin N) (a : Fin A) (k : Fin D) :
    d.resultIdx? (ix3 e a' k') idx = some (ix3 v a k)
      ↔ (idx (ix2 e 0)).toInt = (v.val : ℤ) ∧ a' = a ∧ k' = k := by
  obtain ⟨uw, iw, sd, ivd, wf⟩ := d
  simp only at huw hiw hsd hivd
  subst huw hiw hsd hivd
  -- the start and the window coordinate on each of the three operand axes
  have hs0 : ScatterDims.start ⟨[1, 2], [0], [0], 1, wf⟩ (ix3 e a' k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 3) ∈ ([0] : List (Fin 3)) by decide) ha
  have hs1 : ScatterDims.start ⟨[1, 2], [0], [0], 1, wf⟩ (ix3 e a' k') idx 1 = 0 := by
    unfold ScatterDims.start
    split
    · next ha => exact absurd ha (show (1 : Fin 3) ∉ ([0] : List (Fin 3)) by decide)
    · rfl
  have hs2 : ScatterDims.start ⟨[1, 2], [0], [0], 1, wf⟩ (ix3 e a' k') idx 2 = 0 := by
    unfold ScatterDims.start
    split
    · next ha => exact absurd ha (show (2 : Fin 3) ∉ ([0] : List (Fin 3)) by decide)
    · rfl
  have hw0 : ScatterDims.window ⟨[1, 2], [0], [0], 1, wf⟩ (ix3 e a' k') 0 = 0 := by
    unfold ScatterDims.window
    split
    · next ha => exact absurd ha (show (0 : Fin 3) ∉ ([1, 2] : List (Fin 3)) by decide)
    · rfl
  have hw1 : ScatterDims.window ⟨[1, 2], [0], [0], 1, wf⟩ (ix3 e a' k') 1 = a'.val := by
    unfold ScatterDims.window
    split
    · rfl
    · next ha => exact absurd (show (1 : Fin 3) ∈ ([1, 2] : List (Fin 3)) by decide) ha
  have hw2 : ScatterDims.window ⟨[1, 2], [0], [0], 1, wf⟩ (ix3 e a' k') 2 = k'.val := by
    unfold ScatterDims.window
    split
    · rfl
    · next ha => exact absurd (show (2 : Fin 3) ∈ ([1, 2] : List (Fin 3)) by decide) ha
  unfold ScatterDims.resultIdx?
  split
  · next h =>
    -- the landing point is inside the operand: compare it with (v, a, k) coordinate by coordinate
    have h0 := h 0
    rw [hs0, hw0] at h0
    constructor
    · intro hf
      have hf' := Option.some.inj hf
      have e0 : (ScatterDims.start ⟨[1, 2], [0], [0], 1, wf⟩ (ix3 e a' k') idx 0
          + (ScatterDims.window ⟨[1, 2], [0], [0], 1, wf⟩ (ix3 e a' k') 0 : ℕ)).toNat = v.val :=
        congrArg (fun f : (⟨3, ![N, A, D]⟩ : Shape).Idx => (f 0).val) hf'
      have e1 : (ScatterDims.start ⟨[1, 2], [0], [0], 1, wf⟩ (ix3 e a' k') idx 1
          + (ScatterDims.window ⟨[1, 2], [0], [0], 1, wf⟩ (ix3 e a' k') 1 : ℕ)).toNat = a.val :=
        congrArg (fun f : (⟨3, ![N, A, D]⟩ : Shape).Idx => (f 1).val) hf'
      have e2 : (ScatterDims.start ⟨[1, 2], [0], [0], 1, wf⟩ (ix3 e a' k') idx 2
          + (ScatterDims.window ⟨[1, 2], [0], [0], 1, wf⟩ (ix3 e a' k') 2 : ℕ)).toNat = k.val :=
        congrArg (fun f : (⟨3, ![N, A, D]⟩ : Shape).Idx => (f 2).val) hf'
      rw [hs0, hw0] at e0
      rw [hs1, hw1] at e1
      rw [hs2, hw2] at e2
      exact ⟨by omega, Fin.ext (by omega), Fin.ext (by omega)⟩
    · rintro ⟨hv, rfl, rfl⟩
      congr 1
      funext b
      apply Fin.ext
      match b with
      | ⟨0, _⟩ =>
        show (ScatterDims.start ⟨[1, 2], [0], [0], 1, wf⟩ (ix3 e a' k') idx 0
          + (ScatterDims.window ⟨[1, 2], [0], [0], 1, wf⟩ (ix3 e a' k') 0 : ℕ)).toNat = v.val
        rw [hs0, hw0]; omega
      | ⟨1, _⟩ =>
        show (ScatterDims.start ⟨[1, 2], [0], [0], 1, wf⟩ (ix3 e a' k') idx 1
          + (ScatterDims.window ⟨[1, 2], [0], [0], 1, wf⟩ (ix3 e a' k') 1 : ℕ)).toNat = a'.val
        rw [hs1, hw1]; omega
      | ⟨2, _⟩ =>
        show (ScatterDims.start ⟨[1, 2], [0], [0], 1, wf⟩ (ix3 e a' k') idx 2
          + (ScatterDims.window ⟨[1, 2], [0], [0], 1, wf⟩ (ix3 e a' k') 2 : ℕ)).toNat = k'.val
        rw [hs2, hw2]; omega
  · next h =>
    -- the landing point is outside the operand: then the index word is no plane of it
    constructor
    · intro hf; exact absurd hf (by simp)
    · rintro ⟨hv, rfl, rfl⟩
      exfalso
      apply h
      intro b
      match b with
      | ⟨0, _⟩ =>
        show 0 ≤ ScatterDims.start ⟨[1, 2], [0], [0], 1, wf⟩ (ix3 e a' k') idx 0
            + (ScatterDims.window ⟨[1, 2], [0], [0], 1, wf⟩ (ix3 e a' k') 0 : ℕ)
          ∧ ScatterDims.start ⟨[1, 2], [0], [0], 1, wf⟩ (ix3 e a' k') idx 0
            + (ScatterDims.window ⟨[1, 2], [0], [0], 1, wf⟩ (ix3 e a' k') 0 : ℕ) < (N : ℤ)
        rw [hs0, hw0]
        have := v.isLt
        omega
      | ⟨1, _⟩ =>
        show 0 ≤ ScatterDims.start ⟨[1, 2], [0], [0], 1, wf⟩ (ix3 e a' k') idx 1
            + (ScatterDims.window ⟨[1, 2], [0], [0], 1, wf⟩ (ix3 e a' k') 1 : ℕ)
          ∧ ScatterDims.start ⟨[1, 2], [0], [0], 1, wf⟩ (ix3 e a' k') idx 1
            + (ScatterDims.window ⟨[1, 2], [0], [0], 1, wf⟩ (ix3 e a' k') 1 : ℕ) < (A : ℤ)
        rw [hs1, hw1]
        have := a'.isLt
        omega
      | ⟨2, _⟩ =>
        show 0 ≤ ScatterDims.start ⟨[1, 2], [0], [0], 1, wf⟩ (ix3 e a' k') idx 2
            + (ScatterDims.window ⟨[1, 2], [0], [0], 1, wf⟩ (ix3 e a' k') 2 : ℕ)
          ∧ ScatterDims.start ⟨[1, 2], [0], [0], 1, wf⟩ (ix3 e a' k') idx 2
            + (ScatterDims.window ⟨[1, 2], [0], [0], 1, wf⟩ (ix3 e a' k') 2 : ℕ) < (D : ℤ)
        rw [hs2, hw2]
        have := k'.isLt
        omega

/-- THE SCATTER-ADD OF PLANES AT (v, a, k): the operand's element plus the sum, over the update planes e
    whose index word read signed equals v, of the update element (e, a, k). The sum over all update
    elements that land on (v, a, k) splits into planes and in-plane coordinates; in each plane only the
    element (a, k) can land there. -/
theorem hostScatterAdd_planes {N A D n w : Nat} (d : ScatterDims ⟨3, ![N, A, D]⟩ ⟨2, ![n, 1]⟩ ⟨3, ![n, A, D]⟩)
    (huw : d.updateWindowDims = [1, 2]) (hiw : d.insertedWindowDims = [0])
    (hsd : d.scatterDimsToOperandDims = [0]) (hivd : d.indexVectorDim = 1)
    (x : (⟨3, ![N, A, D]⟩ : Shape).Idx → EReal) (idx : IVec ⟨2, ![n, 1]⟩ w)
    (upd : (⟨3, ![n, A, D]⟩ : Shape).Idx → EReal) (v : Fin N) (a : Fin A) (k : Fin D) :
    Ideal.hostScatterAdd d x idx upd (ix3 v a k)
      = x (ix3 v a k)
        + ∑ e ∈ Finset.univ.filter (fun e : Fin n => (idx (ix2 e 0)).toInt = (v.val : ℤ)), upd (ix3 e a k) := by
  classical
  unfold Ideal.hostScatterAdd
  congr 1
  rw [Finset.sum_filter, sum_idx3, Finset.sum_filter]
  refine Finset.sum_congr rfl (fun e _ => ?_)
  simp only [resultIdx_planes d huw hiw hsd hivd]
  by_cases hP : (idx (ix2 e 0)).toInt = (v.val : ℤ)
  · simp only [hP, true_and]
    rw [Finset.sum_eq_single a]
    · rw [Finset.sum_eq_single k]
      · simp
      · intro k' _ hk'; simp [hk']
      · intro hk; exact absurd (Finset.mem_univ k) hk
    · intro a' _ ha'
      exact Finset.sum_eq_zero (fun k' _ => by simp [ha'])
    · intro ha; exact absurd (Finset.mem_univ a) ha
  · simp [hP]

/-- The same for the scatter-add operation at the ideal instance (any float format). -/
theorem scatterAdd_planes {φ : FTy} {N A D n w : Nat} (d : ScatterDims ⟨3, ![N, A, D]⟩ ⟨2, ![n, 1]⟩ ⟨3, ![n, A, D]⟩)
    (huw : d.updateWindowDims = [1, 2]) (hiw : d.insertedWindowDims = [0])
    (hsd : d.scatterDimsToOperandDims = [0]) (hivd : d.indexVectorDim = 1)
    (x : FVec Ideal ⟨3, ![N, A, D]⟩ φ) (idx : IVec ⟨2, ![n, 1]⟩ w)
    (upd : FVec Ideal ⟨3, ![n, A, D]⟩ φ) (v : Fin N) (a : Fin A) (k : Fin D) :
    Host.scatterAdd (F := Ideal) d x idx upd (ix3 v a k)
      = x (ix3 v a k)
        + ∑ e ∈ Finset.univ.filter (fun e : Fin n => (idx (ix2 e 0)).toInt = (v.val : ℤ)), upd (ix3 e a k) := by
  unfold Host.scatterAdd
  rw [Ideal.hostScatterAdd_def]
  exact hostScatterAdd_planes d huw hiw hsd hivd x idx upd v a k

end Cert.LibScatterAddPlanes
-- ==== Proof.LibReduceMiddleAxes.lean ====
import Idealize.ShloMosaic.Lib.ValueIdx
import Idealize.ShloMosaic.PureOps.Ideal
import Idealize.ShloMosaic.PureOps.Reduce
import Mathlib.Algebra.BigOperators.Group.Finset.Basic
import Mathlib.Algebra.BigOperators.Group.Finset.Piecewise

/-!
# A float sum over the two middle axes of a rank-4 array, read at an index

For an array x of extents n0 × n1 × n2 × n3 over the extended reals, the sum over axes 1 and 2 into an
n0 × n3 result is, at (b, d), the initial value plus the double sum of x(b, v, l, d) over v and l: an index
(b', v, l, d') of the source reduces to (b, d) exactly when b' = b and d' = d.

sum_idx4 splits a sum over a rank-4 index set into its four coordinate sums. Both statements are for
arbitrary extents.
-/

open scoped BigOperators

namespace Cert.LibReduceMiddleAxes

open Idealize.ShloMosaic Idealize.ShloMosaic.ValueIdx

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the iterated sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl (fun a _ => ?_)
  rw [Fintype.sum_prod_type]
  refine Finset.sum_congr rfl (fun b _ => ?_)
  rw [Fintype.sum_prod_type]
  rfl

/-- Which source indices reduce to (b, d): those with first coordinate b and last coordinate d. -/
theorem drop_middle_eq_iff {n0 n1 n2 n3 : Nat}
    (h : (⟨4, ![n0, n1, n2, n3]⟩ : Shape).ReducesTo [1, 2] ⟨2, ![n0, n3]⟩)
    (b' : Fin n0) (v : Fin n1) (l : Fin n2) (d' : Fin n3) (b : Fin n0) (d : Fin n3) :
    h.drop (ix4 b' v l d') = ix2 b d ↔ b' = b ∧ d' = d := by
  have e0 : (h.drop (ix4 b' v l d') 0 : Nat) = b'.val := rfl
  have e1 : (h.drop (ix4 b' v l d') 1 : Nat) = d'.val := rfl
  constructor
  · intro e
    have f0 : (h.drop (ix4 b' v l d') 0 : Nat) = b.val :=
      congrArg (fun f : (⟨2, ![n0, n3]⟩ : Shape).Idx => (f 0).val) e
    have f1 : (h.drop (ix4 b' v l d') 1 : Nat) = d.val :=
      congrArg (fun f : (⟨2, ![n0, n3]⟩ : Shape).Idx => (f 1).val) e
    exact ⟨Fin.ext (e0.symm.trans f0), Fin.ext (e1.symm.trans f1)⟩
  · rintro ⟨rfl, rfl⟩
    funext a
    apply Fin.ext
    match a with
    | ⟨0, _⟩ => exact e0
    | ⟨1, _⟩ => exact e1

/-- THE SUM OVER THE TWO MIDDLE AXES AT (b, d): the initial value plus the double sum over the middle
    coordinates. -/
theorem hostReduceAdd_middle {n0 n1 n2 n3 : Nat}
    (h : (⟨4, ![n0, n1, n2, n3]⟩ : Shape).ReducesTo [1, 2] ⟨2, ![n0, n3]⟩)
    (x : (⟨4, ![n0, n1, n2, n3]⟩ : Shape).Idx → EReal) (init : EReal) (b : Fin n0) (d : Fin n3) :
    Ideal.hostReduceAdd h x init (ix2 b d) = init + ∑ v : Fin n1, ∑ l : Fin n2, x (ix4 b v l d) := by
  classical
  unfold Ideal.hostReduceAdd
  congr 1
  rw [Finset.sum_filter, sum_idx4]
  simp only [drop_middle_eq_iff h]
  rw [Finset.sum_eq_single b]
  · refine Finset.sum_congr rfl fun v _ => Finset.sum_congr rfl fun l _ => ?_
    rw [Finset.sum_eq_single d]
    · simp
    · intro d' _ hd'; simp [hd']
    · intro hd; exact absurd (Finset.mem_univ d) hd
  · intro b' _ hb'
    exact Finset.sum_eq_zero fun v _ => Finset.sum_eq_zero fun l _ => Finset.sum_eq_zero fun d' _ => by simp [hb']
  · intro hb; exact absurd (Finset.mem_univ b) hb

end Cert.LibReduceMiddleAxes
-- ==== Proof.RefValue.lean ====
import proofs.«426509_j84911503442642_3_alg».proof.Proof.Gen.ReferenceIdeal.Read
import proofs.«426509_j84911503442642_3_alg».proof.Proof.LibScatterAddPlanes
import proofs.«426509_j84911503442642_3_alg».proof.Proof.LibReduceMiddleAxes
import proofs.«426509_j84911503442642_3_alg».proof.Proof.Spec
import proofs.«426509_j84911503442642_3_alg».proof.Proof.Consts
import Idealize.ShloMosaic.Lib.StableHlo.Predicate

/-!
# What the reference computes, element by element

The reference lays the tokens of all 32 batch rows out as one list of 16384 rows (row b·512 + t is token t
of batch row b, a 4 × 768 plane of layers and features), gives row b·512 + t the flat segment number
b·512 + id(b, t), and adds every row's plane into the plane its flat segment number names (a segment sum
into 16384 planes, an out-of-range number dropped). It then views the 16384 planes as 32 × 512 planes,
takes the mean over the 4 layers for the word output and the mean over the 512 × 4 slots and layers for the
sentence output.

When every id is in [0, 512) the flat segment number of a token of row b stays inside row b's own 512
slots, so plane (b, v) receives exactly the tokens of row b whose id is v. That is where the range of the
ids is used, and the only place.
-/

set_option maxRecDepth 16384

noncomputable section

open scoped BigOperators

namespace Cert.ReferenceIdeal.RefValue

open Cert.ReferenceIdeal Cert.ReferenceIdeal.Gen Cert.ReferenceIdeal.Read Idealize.ShloMosaic
  Idealize.ShloMosaic.ValueIdx Cert.SegMean

variable (E : FVec Ideal S32x4x512x768 .f32) (S : IVec S32x512 32)

/-- The flat row of token t of batch row b. -/
def flat (b : Fin 32) (t : Fin 512) : Fin 16384 := ⟨b.val * 512 + t.val, by omega⟩

/-- Batch row and token number against flat row: a bijection. -/
def flatEquiv : Fin 32 × Fin 512 ≃ Fin 16384 where
  toFun p := flat p.1 p.2
  invFun e := (⟨e.val / 512, by omega⟩, ⟨e.val % 512, by omega⟩)
  left_inv p := by
    obtain ⟨⟨b, hb⟩, ⟨t, ht⟩⟩ := p
    refine Prod.ext (Fin.ext ?_) (Fin.ext ?_)
    · show (b * 512 + t) / 512 = b; omega
    · show (b * 512 + t) % 512 = t; omega
  right_inv e := by
    obtain ⟨e, he⟩ := e
    apply Fin.ext
    show e / 512 * 512 + e % 512 = e
    omega

/-- The update plane of flat row b·512 + t at (l, d) is the embedding entry (b, l, t, d): the transpose puts the
    token axis before the layer axis and the reshape merges batch and token. -/
theorem update_apply (b : Fin 32) (t : Fin 512) (l : Fin 4) (d : Fin 768) :
    val_main_v1 (F := Ideal) E (ix3 (flat b t) l d) = E (ix4 b l t d) := by
  rw [val_main_v1_apply, val_main_v0_apply]
  refine congrArg E (funext fun a => Fin.ext ?_)
  have hb := b.isLt; have ht := t.isLt; have hl := l.isLt; have hd := d.isLt
  match a with
  | ⟨0, _⟩ => show (((b.val * 512 + t.val) * 4 + l.val) * 768 + d.val) / 1572864 = b.val; omega
  | ⟨1, _⟩ => show (((b.val * 512 + t.val) * 4 + l.val) * 768 + d.val) / 768 % 4 = l.val; omega
  | ⟨2, _⟩ => show (((b.val * 512 + t.val) * 4 + l.val) * 768 + d.val) / 3072 % 512 = t.val; omega
  | ⟨3, _⟩ => show (((b.val * 512 + t.val) * 4 + l.val) * 768 + d.val) % 768 = d.val; omega

/-- The flat segment number of flat row b·512 + t, read as a signed integer, is b·512 + id(b, t) when the id is
    below 512: no 32-bit wrap-around, and the sign bit is clear. -/
theorem flatSeg_toInt (hS : ∀ b t, (S (ix2 b t)).toNat < 512) (b : Fin 32) (t : Fin 512) :
    (val_main_v10 (F := Ideal) S (ix2 (flat b t) 0)).toInt = ((b.val * 512 + (S (ix2 b t)).toNat : ℕ) : ℤ) := by
  have hi : idx_main_v8 (idx_main_v10 (ix2 (flat b t) 0)) = ix2 b t := funext fun a => Fin.ext (by
    have hb := b.isLt; have ht := t.isLt
    match a with
    | ⟨0, _⟩ => show (b.val * 512 + t.val) / 512 = b.val; omega
    | ⟨1, _⟩ => show (b.val * 512 + t.val) % 512 = t.val; omega)
  rw [val_main_v10_apply, val_main_v8_apply, val_main_v7_apply, hi, val_main_v6_apply, val_main_v5_apply,
    val_main_v3_apply, val_main_v4_apply, val_main_v2_apply, val_main_c_apply]
  show (IntOp.addi (IntOp.muli (BitVec.ofNat 32 b.val) 512#32) (S (ix2 b t))).toInt = _
  have hb := b.isLt
  have hs := hS b t
  have hn : (IntOp.addi (IntOp.muli (BitVec.ofNat 32 b.val) 512#32) (S (ix2 b t))).toNat
      = b.val * 512 + (S (ix2 b t)).toNat := by
    unfold IntOp.addi IntOp.muli
    rw [BitVec.toNat_add, BitVec.toNat_mul, BitVec.toNat_ofNat]
    show ((b.val % 2 ^ 32 * 512) % 2 ^ 32 + (S (ix2 b t)).toNat) % 2 ^ 32 = _
    omega
  rw [StableHlo.Predicate.toInt_eq_toNat_of_lt (by rw [hn]; omega), hn]

/-- THE SEGMENT SUM at plane (b, v), layer l, feature d: the embedding entries (b, l, t, d) over the tokens t of
    row b whose id is v. Tokens of another row never land in row b's planes, because every id is below 512. -/
theorem agg_apply (hS : ∀ b t, (S (ix2 b t)).toNat < 512) (b : Fin 32) (v : Fin 512) (l : Fin 4) (d : Fin 768) :
    val_main_v12 (F := Ideal) E S (ix4 b v l d)
      = ∑ t : Fin 512, if (S (ix2 b t)).toNat = v.val then E (ix4 b l t d) else 0 := by
  have hi : idx_main_v12 (ix4 b v l d) = ix3 (flat b v) l d := funext fun a => Fin.ext (by
    have hb := b.isLt; have hv := v.isLt; have hl := l.isLt; have hd := d.isLt
    match a with
    | ⟨0, _⟩ => show (((b.val * 512 + v.val) * 4 + l.val) * 768 + d.val) / 3072 = b.val * 512 + v.val; omega
    | ⟨1, _⟩ => show (((b.val * 512 + v.val) * 4 + l.val) * 768 + d.val) / 768 % 4 = l.val; omega
    | ⟨2, _⟩ => show (((b.val * 512 + v.val) * 4 + l.val) * 768 + d.val) % 768 = d.val; omega)
  rw [val_main_v12_apply, hi]
  unfold val_main_v11
  refine (Cert.LibScatterAddPlanes.scatterAdd_planes scatter_S16384x4x768_S16384x1_S16384x4x768_12_0_0_1
    rfl rfl rfl rfl (val_main_v9 (F := Ideal)) (val_main_v10 (F := Ideal) S) (val_main_v1 (F := Ideal) E)
    (flat b v) l d).trans ?_
  rw [val_main_v9_apply, val_main_cst_apply, Ideal.ofBits_def, Cert.SegMean.Consts.ofBits_zero, zero_add,
    Finset.sum_filter, ← Equiv.sum_comp flatEquiv, Fintype.sum_prod_type, Finset.sum_eq_single b]
  · refine Finset.sum_congr rfl fun t _ => ?_
    show (if (val_main_v10 (F := Ideal) S (ix2 (flat b t) 0)).toInt = ((flat b v).val : ℤ)
        then val_main_v1 (F := Ideal) E (ix3 (flat b t) l d) else 0) = _
    rw [flatSeg_toInt S hS, update_apply]
    refine if_congr ?_ rfl rfl
    show ((b.val * 512 + (S (ix2 b t)).toNat : ℕ) : ℤ) = ((b.val * 512 + v.val : ℕ) : ℤ) ↔ _
    omega
  · intro b' _ hb'
    refine Finset.sum_eq_zero fun t _ => ?_
    show (if (val_main_v10 (F := Ideal) S (ix2 (flat b' t) 0)).toInt = ((flat b v).val : ℤ)
        then val_main_v1 (F := Ideal) E (ix3 (flat b' t) l d) else 0) = 0
    rw [flatSeg_toInt S hS, if_neg]
    show ¬((b'.val * 512 + (S (ix2 b' t)).toNat : ℕ) : ℤ) = ((b.val * 512 + v.val : ℕ) : ℤ)
    have hs := hS b' t
    have hv := v.isLt
    have hne : b'.val ≠ b.val := fun h => hb' (Fin.ext h)
    omega
  · intro hb; exact absurd (Finset.mem_univ b) hb

/-- THE REFERENCE'S WORD OUTPUT at (b, d, v) is the word mean. -/
theorem word_eq (hS : ∀ b t, (S (ix2 b t)).toNat < 512) (b : Fin 32) (d : Fin 768) (v : Fin 512) :
    val_main_v19 (F := Ideal) E S (ix3 b d v) = wordMean E S b d v := by
  have h19 : idx_main_v19 (ix3 b d v) = ix3 b v d := funext fun a => Fin.ext (by
    match a with
    | ⟨0, _⟩ => rfl
    | ⟨1, _⟩ => rfl
    | ⟨2, _⟩ => rfl)
  have h16 : ∀ k : Fin 4, idx_main_v16 (ix3 b v d) k = ix4 b v k d := fun k => funext fun a => Fin.ext (by
    match a with
    | ⟨0, _⟩ => rfl
    | ⟨1, _⟩ => rfl
    | ⟨2, _⟩ => rfl
    | ⟨3, _⟩ => rfl)
  rw [val_main_v19_apply, h19, val_main_v18_apply, val_main_v16_apply, val_main_v17_apply, val_main_cst_3_apply,
    val_main_cst_2_apply]
  simp only [h16, agg_apply E S hS, Ideal.hostDivf_def, Ideal.ofBits_def, Cert.SegMean.Consts.ofBits_zero,
    Cert.SegMean.Consts.ofBits_four, zero_add]
  rw [Ideal.div_coe (by norm_num : (4 : ℝ) ≠ 0), Fin.sum_univ_four, sum_four_selected]
  rfl

/-- THE REFERENCE'S SENTENCE OUTPUT at (b, d) is the sentence mean: over all slots the selected tokens are all
    the tokens, each id naming one slot. -/
theorem sent_eq (hS : ∀ b t, (S (ix2 b t)).toNat < 512) (b : Fin 32) (d : Fin 768) :
    val_main_v15 (F := Ideal) E S (ix2 b d) = sentMean E b d := by
  rw [val_main_v15_apply, val_main_v14_apply, val_main_cst_1_apply]
  unfold val_main_v13
  simp only [Host.reduceAdd, Ideal.hostReduceAdd_def]
  rw [Cert.LibReduceMiddleAxes.hostReduceAdd_middle]
  simp only [agg_apply E S hS, val_main_cst_0_apply, Ideal.hostDivf_def, Ideal.ofBits_def,
    Cert.SegMean.Consts.ofBits_zero, Cert.SegMean.Consts.ofBits_2048, zero_add]
  rw [Ideal.div_coe (by norm_num : (2048 : ℝ) ≠ 0), Finset.sum_comm]
  have hslot : ∀ l : Fin 4, (∑ v : Fin 512, ∑ t : Fin 512,
      (if (S (ix2 b t)).toNat = v.val then E (ix4 b l t d) else 0)) = ∑ t : Fin 512, E (ix4 b l t d) := fun l =>
    sum_slots_val (fun t : Fin 512 => (⟨(S (ix2 b t)).toNat, hS b t⟩ : Fin 512)) (fun t => E (ix4 b l t d))
  simp only [hslot]
  rw [Fin.sum_univ_four, ← Finset.sum_add_distrib, ← Finset.sum_add_distrib, ← Finset.sum_add_distrib]
  rfl

end Cert.ReferenceIdeal.RefValue

end
-- ==== Proof.lean ====
/-
  A segment mean of token embeddings, computed two ways, is one function.

  Inputs: embeddings E (32 batch rows × 4 layers × 512 tokens × 768 features) and, for every token of every
  batch row, a segment id in [0, 512) naming the word slot the token belongs to (the range is the reference's
  stated contract on its ids, and the claim's precondition carries it beside the finiteness of E).

  The kernel, per pair of batch rows, adds the four layers of every token, builds the 512 × 512 one-hot matrix
  "token t has id v", multiplies (contracting the token axis) and scales by 0.25 for the word output; it sums
  the layer sums over all tokens and scales by 1/2048 for the sentence output.

  The reference scatter-adds every token's (layer × feature) plane into plane number b·512 + id(b, t) of a list
  of 32·512 planes, views the list as 32 × 512 planes, divides the layer sums by 4 for the word output, and
  divides the sum over slots and layers by 2048 for the sentence output.

  Over the extended reals both word outputs are  (Σ over the tokens t of row b with id v of Σ_l E(b,l,t,d)) / 4
  and both sentence outputs  (Σ_t Σ_l E(b,l,t,d)) / 2048:
    · a product with a one-hot entry keeps or drops the factor (x·1 = x, x·0 = 0: true of ±∞ too);
    · with ids in [0, 512) no token of another batch row lands in row b's planes, so plane (b, v) collects
      exactly row b's tokens with id v, and over all 512 slots every token of the row is collected once;
    · sums are regrouped by commutativity and associativity of + alone;
    · 0.25, 4, 1/2048 and 2048 are powers of two, exact in single precision, and x / 4 = x · (1/4) on every
      extended real.
  Finiteness of E is never used.
-/
import proofs.«426509_j84911503442642_3_alg».proof.Defs
import proofs.«426509_j84911503442642_3_alg».proof.Proof.Gen.Kernel
import proofs.«426509_j84911503442642_3_alg».proof.Proof.Gen.Kernel.Skeleton
import proofs.«426509_j84911503442642_3_alg».proof.Proof.Gen.Kernel.Launch
import proofs.«426509_j84911503442642_3_alg».proof.Proof.Gen.Kernel.Points
import proofs.«426509_j84911503442642_3_alg».proof.Proof.Gen.Kernel.Frame
import proofs.«426509_j84911503442642_3_alg».proof.Proof.Gen.KernelIdeal
import proofs.«426509_j84911503442642_3_alg».proof.Proof.Gen.KernelIdeal.Skeleton
import proofs.«426509_j84911503442642_3_alg».proof.Proof.Gen.KernelIdeal.Launch
import proofs.«426509_j84911503442642_3_alg».proof.Proof.Gen.KernelIdeal.Points
import proofs.«426509_j84911503442642_3_alg».proof.Proof.Gen.KernelIdeal.Frame
import proofs.«426509_j84911503442642_3_alg».proof.Proof.Gen.ReferenceIdeal
import proofs.«426509_j84911503442642_3_alg».proof.Proof.Gen.ReferenceIdeal.Run
import proofs.«426509_j84911503442642_3_alg».proof.Proof.Gen.ReferenceIdeal.Read
import proofs.«426509_j84911503442642_3_alg».proof.Proof.Gen.Pre_finite_inputs
import proofs.«426509_j84911503442642_3_alg».proof.Proof.PreRange
import proofs.«426509_j84911503442642_3_alg».proof.Proof.KerValue
import proofs.«426509_j84911503442642_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the results forgotten. -/
theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- No operation of the kernel was rewritten when it was read over the extended reals. -/
theorem preserves : Cert.preserves_Kernel_KernelIdeal := trivial

/-- Both programs end with the word means and the sentence means of the same arguments. -/
theorem algebraic : Cert.algebraic_KernelIdeal_ReferenceIdeal := by
  intro m ρ m' ρ' hpre hagree
  have hS : ∀ (c : Dev Cert.KernelIdeal.nD) (b : Fin 32) (t : Fin 512),
      (m ((c.tc : Thread Cert.KernelIdeal.nD Cert.KernelIdeal.τ).loc Cert.KernelIdeal.main_arg1) (ix2 b t)).toNat < 512 :=
    fun c b t => Cert.SegMean.PreRange.ids_in_range _ _ (hpre c) b t
  refine ⟨fun c => Cert.KernelIdeal.KerValue.Gword m c, fun c => Cert.KernelIdeal.KerValue.Gsent m c,
    Cert.KernelIdeal.KerValue.run m ρ, ?_⟩
  refine (θ_run Cert.ReferenceIdeal.defs _ _).mono (fun _ h c => ⟨(h c).1.trans ?_, (h c).2.1.trans ?_,
    (h c).2.2.1, (h c).2.2.2⟩) (Cert.ReferenceIdeal.Value.run (F := Ideal) m' ρ')
  · rw [Cert.ReferenceIdeal.Read.val_main_v19_eq, (hagree c).1, (hagree c).2]
    funext i
    obtain ⟨b, d, v, rfl⟩ : ∃ (b : Fin 32) (d : Fin 768) (v : Fin 512), i = ix3 b d v := ⟨i 0, i 1, i 2, eq_ix3 i⟩
    exact Cert.ReferenceIdeal.RefValue.word_eq _ _ (hS c) b d v
  · rw [Cert.ReferenceIdeal.Read.val_main_v15_eq, (hagree c).1, (hagree c).2]
    funext i
    obtain ⟨b, d, rfl⟩ : ∃ (b : Fin 32) (d : Fin 768), i = ix2 b d := ⟨i 0, i 1, eq_ix2 i⟩
    exact Cert.ReferenceIdeal.RefValue.sent_eq _ _ (hS c) b d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
